-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x512 .f32) (main_arg5 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S10000x512 .f32) (main_arg1 : FVec F S10000x10000 .f32) (main_arg2 : FVec F S512x512 .f32) (main_arg3 : FVec F S512 .f32) (main_arg4 : FVec F S512x512 .f32) (main_arg5 : FVec F S512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S1x512 : Shape := ⟨2, ![1, 512]⟩
abbrev S400x512 : Shape := ⟨2, ![400, 512]⟩
abbrev S400x10000 : Shape := ⟨2, ![400, 10000]⟩

abbrev nBuf : Space → Nat
  | .hbm => 13
  | .vmem => 18
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .bf16⟩
  | .hbm, ⟨7, _⟩ => ⟨S10000x512, .bf16⟩
  | .hbm, ⟨8, _⟩ => ⟨S512x512, .bf16⟩
  | .hbm, ⟨9, _⟩ => ⟨S1x512, .f32⟩
  | .hbm, ⟨10, _⟩ => ⟨S10000x512, .bf16⟩
  | .hbm, ⟨11, _⟩ => ⟨S1x512, .f32⟩
  | .hbm, ⟨12, _⟩ => ⟨S10000x512, .f32⟩
  | .local _ .vmem, ⟨0, _⟩ => ⟨S400x512, .f32⟩
  | .local _ .vmem, ⟨1, _⟩ => ⟨S400x512, .f32⟩
  | .local _ .vmem, ⟨2, _⟩ => ⟨S512x512, .bf16⟩
  | .local _ .vmem, ⟨3, _⟩ => ⟨S400x512, .bf16⟩
  | .local _ .vmem, ⟨4, _⟩ => ⟨S400x512, .bf16⟩
  | .local _ .vmem, ⟨5, _⟩ => ⟨S400x10000, .f32⟩
  | .local _ .vmem, ⟨6, _⟩ => ⟨S400x10000, .f32⟩
  | .local _ .vmem, ⟨7, _⟩ => ⟨S10000x512, .bf16⟩
  | .local _ .vmem, ⟨8, _⟩ => ⟨S512x512, .bf16⟩
  | .local _ .vmem, ⟨9, _⟩ => ⟨S1x512, .f32⟩
  | .local _ .vmem, ⟨10, _⟩ => ⟨S400x512, .bf16⟩
  | .local _ .vmem, ⟨11, _⟩ => ⟨S400x512, .bf16⟩
  | .local _ .vmem, ⟨12, _⟩ => ⟨S400x10000, .f32⟩
  | .local _ .vmem, ⟨13, _⟩ => ⟨S400x10000, .f32⟩
  | .local _ .vmem, ⟨14, _⟩ => ⟨S10000x512, .bf16⟩
  | .local _ .vmem, ⟨15, _⟩ => ⟨S1x512, .f32⟩
  | .local _ .vmem, ⟨16, _⟩ => ⟨S400x512, .f32⟩
  | .local _ .vmem, ⟨17, _⟩ => ⟨S400x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  shapeCasts_S512_S1x512 : S512.ShapeCasts S1x512
  inb_S400x512_S400x512_0_0 : ∀ a, (![0, 0] : Fin 2 → Nat) a + S400x512.size a ≤ S400x512.size a
  h_S400x512 : 0 < S400x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S400x512_S400x512_0_0 : (Rect.unit (s := S400x512) ![0, 0] S400x512.size inb_S400x512_S400x512_0_0).PackedRows (EltTy.packing .bf16)
  inb_S400x10000_S400x10000_0_0 : ∀ a, (![0, 0] : Fin 2 → Nat) a + S400x10000.size a ≤ S400x10000.size a
  h_S400x10000 : 0 < S400x10000.numel
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S400x512 : S1x512.Broadcasts S400x512
  dot_S400x512_S512x512_S400x512_1_0_0_1_n_n_wf : DotDims.WF S400x512 S512x512 S400x512 [1] [0] [0] [1] [] []
  dot_S400x10000_S10000x512_S400x512_1_0_0_1_n_n_wf : DotDims.WF S400x10000 S10000x512 S400x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x512.size a ≤ S10000x512.size a
  hwx0_0 : ∀ i : grid0.Coords, EltTy.bits .f32 = 32 ∨ (Rect.block (s := S10000x512) S400x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x512.size a ≤ S10000x512.size a
  hwx0_2 : ∀ i : grid0.Coords, EltTy.bits .bf16 = 32 ∨ (Rect.block (s := S10000x512) S400x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x512.size a ≤ S10000x512.size a
  hwx1_1 : ∀ i : grid1.Coords, EltTy.bits .bf16 = 32 ∨ (Rect.block (s := S10000x512) S10000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x512.size a ≤ S10000x512.size a
  hwx1_4 : ∀ i : grid1.Coords, EltTy.bits .bf16 = 32 ∨ (Rect.block (s := S10000x512) S400x512.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x512.size a ≤ S10000x512.size a
  hwx2_1 : ∀ i : grid2.Coords, EltTy.bits .bf16 = 32 ∨ (Rect.block (s := S10000x512) S10000x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x512.size a ≤ S10000x512.size a
  hwx2_3 : ∀ i : grid2.Coords, EltTy.bits .f32 = 32 ∨ (Rect.block (s := S10000x512) S400x512.size (cc2_transform_3 i) (hinb2_3 i)).WholeWords (EltTy.packing .f32)

variable [Facts₀]

def dot_S400x512_S512x512_S400x512_1_0_0_1_n_n : DotDims S400x512 S512x512 S400x512 where
  lhsContracting := [1]
  rhsContracting := [0]
  lhsNonContracting := [0]
  rhsNonContracting := [1]
  lhsBatch := []
  rhsBatch := []
  wf := dot_S400x512_S512x512_S400x512_1_0_0_1_n_n_wf
def dot_S400x10000_S10000x512_S400x512_1_0_0_1_n_n : DotDims S400x10000 S10000x512 S400x512 where
  lhsContracting := [1]
  rhsContracting := [0]
  lhsNonContracting := [0]
  rhsNonContracting := [1]
  lhsBatch := []
  rhsBatch := []
  wf := dot_S400x10000_S10000x512_S400x512_1_0_0_1_n_n_wf

abbrev win0_0 : Pipeline.Window sig grid0 :=
  Pipeline.Window.ofSpec (Memref.whole main_arg0) S400x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S400x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v1) S10000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v2) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v3) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v4) S400x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v4) S10000x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v5) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S400x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S1x512 : Shape := ⟨2, ![1, 512]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S10000x512, .f32⟩
  | .hbm, ⟨7, _⟩ => ⟨S10000x512, .f32⟩
  | .hbm, ⟨8, _⟩ => ⟨S1x512, .f32⟩
  | .hbm, ⟨9, _⟩ => ⟨S10000x512, .f32⟩
  | .hbm, ⟨10, _⟩ => ⟨S10000x512, .f32⟩
  | .hbm, ⟨11, _⟩ => ⟨S_, .f32⟩
  | .hbm, ⟨12, _⟩ => ⟨S10000x512, .f32⟩
  | .hbm, ⟨13, _⟩ => ⟨S10000x512, .f32⟩
  | .hbm, ⟨14, _⟩ => ⟨S10000x512, .f32⟩
  | .hbm, ⟨15, _⟩ => ⟨S10000x512, .f32⟩
  | .hbm, ⟨16, _⟩ => ⟨S1x512, .f32⟩
  | .hbm, ⟨17, _⟩ => ⟨S10000x512, .f32⟩
  | .hbm, ⟨18, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  dot_S10000x512_S512x512_S10000x512_1_0_0_1_n_n_wf : DotDims.WF S10000x512 S512x512 S10000x512 [1] [0] [0] [1] [] []
  dot_S10000x10000_S10000x512_S10000x512_1_0_0_1_n_n_wf : DotDims.WF S10000x10000 S10000x512 S10000x512 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf

class Facts : Prop extends Facts₀ where

variable [Facts]
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.LibRowBias.lean ====
/-
  A bias row read at an index.

  A vector [n] laid out as a one-row matrix [1, n] holds at (0, j) the vector's entry j; and a one-row matrix [1, n]
  broadcast down M rows holds at (p, j) its entry (0, j). The host's form of the two together — a vector [n] broadcast to
  [1, n] and then to [M, n] — holds at (p, j) the vector's entry j. A scalar broadcast to any shape holds the scalar
  everywhere. Generic in the extents and the element type.
-/
import Idealize.ShloMosaic.Lib.Pipeline.Value
import Idealize.ShloMosaic.Lib.ValueIdx

noncomputable section

namespace Cert.RowBias

open Idealize.ShloMosaic Idealize.ShloMosaic.ValueIdx

variable {α : Type} {M n : Nat}

/-- A one-row matrix broadcast down the rows: every row is the one row. -/
theorem rows_apply (v : (⟨2, ![1, n]⟩ : Shape).Idx → α) (hb : (⟨2, ![1, n]⟩ : Shape).Broadcasts ⟨2, ![M, n]⟩) (p : Fin M) (j : Fin n) :
    broadcastTo ⟨2, ![M, n]⟩ v hb (ix2 p j) = v (ix2 (0 : Fin 1) j) :=
  broadcastTo_apply v hb (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega

/-- A vector reshaped to a one-row matrix: the row is the vector. -/
theorem ofVec_apply (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- The host's bias: a vector broadcast to one row and then down the rows. -/
theorem hostRows_apply (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![M, n]⟩ ![0, 1]) (p : Fin M) (j : Fin n) :
    broadcastInDim ⟨2, ![M, n]⟩ ![0, 1] h2 (broadcastInDim ⟨2, ![1, n]⟩ ![1] h1 b) (ix2 p j) = b (ix1 j) :=
  (broadcastInDim_apply ![0, 1] h2 _ (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega).trans
  (broadcastInDim_apply ![1] h1 b (ix2 (0 : Fin 1) j) (ix1 j) fun a => match a with
    | ⟨0, _⟩ => by
        show j.val = if n = 1 then 0 else j.val
        have := j.isLt
        split <;> omega)

/-- A scalar broadcast to a shape holds the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

end Cert.RowBias

end
-- ==== Proof.Stages.lean ====
/-
  The stages of a two-layer graph convolution on whole arrays over the extended reals, each read at an index.

  `prod L R` is the matrix product as the host computes it; at (p, q) it is the sum over k of L[p,k] · R[k,q].
  `conv A S b` is A·S with the vector b added to every row; at (p, k) it is (Σ_j A[p,j] · S[j,k]) + b[k].
  `relu Y` is the entrywise maximum of Y and the zero array; at an index it is max (Y i) 0̂, where 0̂ is the value
  the all-zero word denotes.
-/
import proofs.«145209_g29197187678275_cont_9to1_429_12_alg».proof.Proof.LibPlainDot
import proofs.«145209_g29197187678275_cont_9to1_429_12_alg».proof.Proof.LibRowBias
import Idealize.ShloMosaic.PureOps.Ideal.Laws
import Idealize.ShloMosaic.Lib.ValueIdx
import Idealize.ShloMosaic.Lib.Pipeline.Value

noncomputable section

open scoped BigOperators

namespace Cert.Layer

open Idealize.ShloMosaic Idealize.ShloMosaic.ValueIdx

variable {M K N : Nat}

/-- The matrix product as the host computes it. -/
abbrev prod {φ₁ φ₂ : FTy} (L : FVec Ideal ⟨2, ![M, K]⟩ φ₁) (R : FVec Ideal ⟨2, ![K, N]⟩ φ₂) : FVec Ideal ⟨2, ![M, N]⟩ .f32 :=
  FloatOps.dotGeneral (F := Ideal) (DotDims.plain M K N) none .single L R

theorem prod_apply {φ₁ φ₂ : FTy} (L : FVec Ideal ⟨2, ![M, K]⟩ φ₁) (R : FVec Ideal ⟨2, ![K, N]⟩ φ₂) (p : Fin M) (q : Fin N) :
    prod L R (ix2 p q) = ∑ k : Fin K, L (ix2 p k) * R (ix2 k q) :=
  Cert.PlainDot.dotGeneral_apply none .single L R p q

/-- A vector laid along every row of an M-row array, as the host spells it: to one row, then down the rows. -/
abbrev rows (h1 : (⟨1, ![N]⟩ : Shape).BroadcastsInDim ⟨2, ![1, N]⟩ ![1])
    (h2 : (⟨2, ![1, N]⟩ : Shape).BroadcastsInDim ⟨2, ![M, N]⟩ ![0, 1]) (b : FVec Ideal ⟨1, ![N]⟩ .f32) : FVec Ideal ⟨2, ![M, N]⟩ .f32 :=
  broadcastInDim ⟨2, ![M, N]⟩ ![0, 1] h2 (broadcastInDim ⟨2, ![1, N]⟩ ![1] h1 b)

/-- A·S with b added to every row. -/
abbrev conv {φ₂ : FTy} (h1 : (⟨1, ![N]⟩ : Shape).BroadcastsInDim ⟨2, ![1, N]⟩ ![1])
    (h2 : (⟨2, ![1, N]⟩ : Shape).BroadcastsInDim ⟨2, ![M, N]⟩ ![0, 1])
    (A : FVec Ideal ⟨2, ![M, K]⟩ .f32) (S : FVec Ideal ⟨2, ![K, N]⟩ φ₂) (b : FVec Ideal ⟨1, ![N]⟩ .f32) : FVec Ideal ⟨2, ![M, N]⟩ .f32 :=
  addf (prod A S) (rows h1 h2 b)

theorem conv_apply {φ₂ : FTy} (h1 : (⟨1, ![N]⟩ : Shape).BroadcastsInDim ⟨2, ![1, N]⟩ ![1])
    (h2 : (⟨2, ![1, N]⟩ : Shape).BroadcastsInDim ⟨2, ![M, N]⟩ ![0, 1])
    (A : FVec Ideal ⟨2, ![M, K]⟩ .f32) (S : FVec Ideal ⟨2, ![K, N]⟩ φ₂) (b : FVec Ideal ⟨1, ![N]⟩ .f32) (p : Fin M) (k : Fin N) :
    conv h1 h2 A S b (ix2 p k) = (∑ j : Fin K, A (ix2 p j) * S (ix2 j k)) + b (ix1 k) := by
  show prod A S (ix2 p k) + broadcastInDim ⟨2, ![M, N]⟩ ![0, 1] h2 (broadcastInDim ⟨2, ![1, N]⟩ ![1] h1 b) (ix2 p k) = _
  rw [prod_apply, Cert.RowBias.hostRows_apply]

/-- The entrywise maximum with the zero array (the zero word splat to the shape). -/
abbrev relu (hS : (⟨0, ![]⟩ : Shape).BroadcastsInDim ⟨2, ![M, N]⟩ ![]) (Y : FVec Ideal ⟨2, ![M, N]⟩ .f32) : FVec Ideal ⟨2, ![M, N]⟩ .f32 :=
  maximumf Y (broadcastInDim ⟨2, ![M, N]⟩ ![] hS (constant ⟨0, ![]⟩ .f32 0x00000000#32))

theorem relu_apply (hS : (⟨0, ![]⟩ : Shape).BroadcastsInDim ⟨2, ![M, N]⟩ ![]) (Y : FVec Ideal ⟨2, ![M, N]⟩ .f32) (i : (⟨2, ![M, N]⟩ : Shape).Idx) :
    relu hS Y i = max (Y i) (Ideal.ofBits .f32 0x00000000#32) := by
  show max (Y i) (broadcastInDim ⟨2, ![M, N]⟩ ![] hS (constant (F := Ideal) ⟨0, ![]⟩ .f32 0x00000000#32) i) = _
  rw [Cert.RowBias.splat_apply]
  rfl

/-- Two graph-convolution layers: adj · (max(adj · (x · W₁) + b₁, 0̂) · W₂) + b₂. -/
abbrev twoLayer (h1 : (⟨1, ![N]⟩ : Shape).BroadcastsInDim ⟨2, ![1, N]⟩ ![1])
    (h2 : (⟨2, ![1, N]⟩ : Shape).BroadcastsInDim ⟨2, ![M, N]⟩ ![0, 1]) (hS : (⟨0, ![]⟩ : Shape).BroadcastsInDim ⟨2, ![M, N]⟩ ![])
    (x : FVec Ideal ⟨2, ![M, N]⟩ .f32) (adj : FVec Ideal ⟨2, ![M, M]⟩ .f32) (W₁ : FVec Ideal ⟨2, ![N, N]⟩ .f32)
    (b₁ : FVec Ideal ⟨1, ![N]⟩ .f32) (W₂ : FVec Ideal ⟨2, ![N, N]⟩ .f32) (b₂ : FVec Ideal ⟨1, ![N]⟩ .f32) : FVec Ideal ⟨2, ![M, N]⟩ .f32 :=
  conv h1 h2 adj (prod (relu hS (conv h1 h2 adj (prod x W₁) b₁)) W₂) b₂

end Cert.Layer

end
-- ==== Proof.Payloads.lean ====
/-
  The three kernel bodies' stored values read at an index, over the extended reals, and each as a row of a whole-array stage.

  The first body stores (block of x)·W: at (r, q) the sum over k of x-block[r,k] · W[k,q].
  The third stores (block of adj)·S + b: at (r, k) the sum over j of adj-block[r,j] · S[j,k], plus b[0,k].
  The second stores max(that, 0̂)·W₂: at (r, q) the sum over k of max(…[r,k], 0̂) · W₂[k,q].
  When the block's row r is the array's row p, each is the corresponding whole-array stage at row p.
-/
import proofs.«145209_g29197187678275_cont_9to1_429_12_alg».proof.Proof.Gen.KernelIdeal.Skeleton
import proofs.«145209_g29197187678275_cont_9to1_429_12_alg».proof.Proof.Stages

noncomputable section

open scoped BigOperators

namespace Cert.KernelIdeal.Pay

open Cert.KernelIdeal Cert.KernelIdeal.Gen Cert.Layer
open Idealize.ShloMosaic Idealize.ShloMosaic.TcCoe Idealize.ShloMosaic.ValueIdx

/-! ## The first body: a block of rows times the weight matrix -/

theorem pay0_apply (v0 : FVec Ideal ⟨2, ![400, 512]⟩ .f32) (v2 : FVec Ideal ⟨2, ![512, 512]⟩ .bf16) (r : Fin 400) (q : Fin 512) :
    k0_pay1 (F := Ideal) v0 v2 (ix2 r q) = ∑ k : Fin 512, v0 (ix2 r k) * v2 (ix2 k q) := by
  unfold k0_pay1
  show FloatOps.matmul (F := Ideal) (φ₁ := .bf16) (φ₂ := .bf16) (DotDims.plain 400 512 512) none v0 (shapeCast S512x512 v2 shapeCasts_S512x512_S512x512)
    (constant ⟨2, ![400, 512]⟩ .f32 0x00000000#32) (ix2 r q) = _
  rw [shapeCast_self]
  exact Cert.PlainDot.matmul_zero_apply none v0 v2 r q

/-- Row r of the block's product is row p of the whole product, when the block's row r is the array's row p. -/
theorem pay0_eq (X : FVec Ideal ⟨2, ![10000, 512]⟩ .f32) (W : FVec Ideal ⟨2, ![512, 512]⟩ .bf16)
    (v0 : FVec Ideal ⟨2, ![400, 512]⟩ .f32) (v2 : FVec Ideal ⟨2, ![512, 512]⟩ .bf16) (p : Fin 10000) (r : Fin 400) (q : Fin 512)
    (h0 : ∀ k : Fin 512, v0 (ix2 r k) = X (ix2 p k)) (h2 : ∀ k : Fin 512, v2 (ix2 k q) = W (ix2 k q)) :
    k0_pay1 (F := Ideal) v0 v2 (ix2 r q) = prod X W (ix2 p q) := by
  rw [pay0_apply, prod_apply]
  refine Finset.sum_congr rfl fun k _ => ?_
  rw [h0 k, h2 k]

/-! ## The third body: a block of rows of adj times a stored array, plus the bias row -/

theorem pay2_apply (v0 : FVec Ideal ⟨2, ![400, 10000]⟩ .f32) (v2 : FVec Ideal ⟨2, ![10000, 512]⟩ .bf16) (v5 : FVec Ideal ⟨2, ![1, 512]⟩ .f32)
    (r : Fin 400) (k : Fin 512) :
    k2_pay1 (F := Ideal) v0 v2 v5 (ix2 r k) = (∑ j : Fin 10000, v0 (ix2 r j) * v2 (ix2 j k)) + v5 (ix2 (0 : Fin 1) k) := by
  unfold k2_pay1
  show FloatOps.matmul (F := Ideal) (φ₁ := .bf16) (φ₂ := .bf16) (DotDims.plain 400 10000 512) none v0 (shapeCast S10000x512 v2 shapeCasts_S10000x512_S10000x512)
      (constant ⟨2, ![400, 512]⟩ .f32 0x00000000#32) (ix2 r k)
    + broadcastTo S400x512 (shapeCast S1x512 v5 shapeCasts_S1x512_S1x512) broadcasts_S1x512_S400x512 (ix2 r k) = _
  rw [shapeCast_self, shapeCast_self, Cert.PlainDot.matmul_zero_apply, Cert.RowBias.rows_apply]

theorem pay2_eq (h1 : (⟨1, ![512]⟩ : Shape).BroadcastsInDim ⟨2, ![1, 512]⟩ ![1])
    (h2 : (⟨2, ![1, 512]⟩ : Shape).BroadcastsInDim ⟨2, ![10000, 512]⟩ ![0, 1])
    (A : FVec Ideal ⟨2, ![10000, 10000]⟩ .f32) (S : FVec Ideal ⟨2, ![10000, 512]⟩ .bf16) (b : FVec Ideal ⟨1, ![512]⟩ .f32)
    (v0 : FVec Ideal ⟨2, ![400, 10000]⟩ .f32) (v2 : FVec Ideal ⟨2, ![10000, 512]⟩ .bf16) (v5 : FVec Ideal ⟨2, ![1, 512]⟩ .f32)
    (p : Fin 10000) (r : Fin 400) (k : Fin 512)
    (e0 : ∀ j : Fin 10000, v0 (ix2 r j) = A (ix2 p j)) (e2 : ∀ j : Fin 10000, v2 (ix2 j k) = S (ix2 j k))
    (e5 : v5 (ix2 (0 : Fin 1) k) = b (ix1 k)) :
    k2_pay1 (F := Ideal) v0 v2 v5 (ix2 r k) = conv h1 h2 A S b (ix2 p k) := by
  rw [pay2_apply, conv_apply, e5]
  refine congrArg (· + b (ix1 k)) (Finset.sum_congr rfl fun j _ => ?_)
  rw [e0 j, e2 j]

/-! ## The second body: the rectified layer's block times the second weight matrix -/

theorem pay1_apply (v0 : FVec Ideal ⟨2, ![400, 10000]⟩ .f32) (v2 : FVec Ideal ⟨2, ![10000, 512]⟩ .bf16) (v5 : FVec Ideal ⟨2, ![1, 512]⟩ .f32)
    (v12 : FVec Ideal ⟨2, ![512, 512]⟩ .bf16) (r : Fin 400) (q : Fin 512) :
    k1_pay1 (F := Ideal) v0 v2 v5 v12 (ix2 r q)
      = ∑ k : Fin 512, max (k2_pay1 (F := Ideal) v0 v2 v5 (ix2 r k)) (Ideal.ofBits .f32 0x00000000#32) * v12 (ix2 k q) := by
  unfold k1_pay1
  show FloatOps.matmul (F := Ideal) (φ₁ := .bf16) (φ₂ := .bf16) (DotDims.plain 400 512 512) none
      (maximumf (k2_pay1 (F := Ideal) v0 v2 v5) (broadcast S400x512 (Scalar.ofBits (F := Ideal) .f32 0x00000000#32)))
      (shapeCast S512x512 v12 shapeCasts_S512x512_S512x512) (constant ⟨2, ![400, 512]⟩ .f32 0x00000000#32) (ix2 r q) = _
  rw [shapeCast_self, Cert.PlainDot.matmul_zero_apply]
  rfl

theorem pay1_eq (h1 : (⟨1, ![512]⟩ : Shape).BroadcastsInDim ⟨2, ![1, 512]⟩ ![1])
    (h2 : (⟨2, ![1, 512]⟩ : Shape).BroadcastsInDim ⟨2, ![10000, 512]⟩ ![0, 1])
    (hS : (⟨0, ![]⟩ : Shape).BroadcastsInDim ⟨2, ![10000, 512]⟩ ![])
    (A : FVec Ideal ⟨2, ![10000, 10000]⟩ .f32) (S : FVec Ideal ⟨2, ![10000, 512]⟩ .bf16) (b : FVec Ideal ⟨1, ![512]⟩ .f32)
    (W : FVec Ideal ⟨2, ![512, 512]⟩ .bf16)
    (v0 : FVec Ideal ⟨2, ![400, 10000]⟩ .f32) (v2 : FVec Ideal ⟨2, ![10000, 512]⟩ .bf16) (v5 : FVec Ideal ⟨2, ![1, 512]⟩ .f32)
    (v12 : FVec Ideal ⟨2, ![512, 512]⟩ .bf16)
    (p : Fin 10000) (r : Fin 400) (q : Fin 512)
    (e0 : ∀ j : Fin 10000, v0 (ix2 r j) = A (ix2 p j)) (e2 : ∀ (j : Fin 10000) (k : Fin 512), v2 (ix2 j k) = S (ix2 j k))
    (e5 : ∀ k : Fin 512, v5 (ix2 (0 : Fin 1) k) = b (ix1 k)) (e12 : ∀ k : Fin 512, v12 (ix2 k q) = W (ix2 k q)) :
    k1_pay1 (F := Ideal) v0 v2 v5 v12 (ix2 r q) = prod (relu hS (conv h1 h2 A S b)) W (ix2 p q) := by
  rw [pay1_apply, prod_apply]
  refine Finset.sum_congr rfl fun k _ => ?_
  rw [relu_apply, pay2_eq h1 h2 A S b v0 v2 v5 p r k e0 (fun j => e2 j k) (e5 k), e12 k]

end Cert.KernelIdeal.Pay

end
-- ==== Proof.Region0.lean ====
/-
  The first region: S₁ = x · W₁, 400 rows of x at a time.

  At grid point t the body reads rows 400t … 400t+399 of x and the whole weight matrix and stores their product; so the block
  it writes back is rows 400t … of the whole product x · W₁, and the 25 blocks tile the output array. Stated at any
  contents V of the buffers when the region is entered.
-/
import proofs.«145209_g29197187678275_cont_9to1_429_12_alg».proof.Proof.Gen.KernelIdeal.Frame
import proofs.«145209_g29197187678275_cont_9to1_429_12_alg».proof.Proof.Payloads
import Idealize.ShloMosaic.Lib.Pipeline.Value
import Idealize.ShloMosaic.Lib.ValueIdx

set_option maxRecDepth 16384

noncomputable section

namespace Cert.KernelIdeal.Region0

open Cert.KernelIdeal Cert.KernelIdeal.Gen Cert.KernelIdeal.Pay Cert.Layer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the grid of 25 points: a window of 400 rows sits at block row t, a whole-array
    window at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem emb_x (t : Fin cfg0.N) (r : Fin 400) (k : Fin 512) (h : t.val * 400 + r.val < 10000) :
    ((cfg0.win 0).blk t).view.emb (ix2 r k) = (ix2 ⟨t.val * 400 + r.val, h⟩ k : (⟨2, ![10000, 512]⟩ : Shape).Idx) := by
  obtain ⟨e0, e1, e2, e3, e4, e5⟩ := idx_facts t
  funext a; apply Fin.ext
  match a with
  | ⟨0, _⟩ => show win0_0.index t (0 : Fin 2) * 400 + 1 * r.val = t.val * 400 + r.val; omega
  | ⟨1, _⟩ => show win0_0.index t (1 : Fin 2) * 512 + 1 * k.val = k.val; omega

theorem emb_w (t : Fin cfg0.N) (r : Fin 512) (k : Fin 512) :
    ((cfg0.win 1).blk t).view.emb (ix2 r k) = (ix2 r k : (⟨2, ![512, 512]⟩ : Shape).Idx) := by
  obtain ⟨e0, e1, e2, e3, e4, e5⟩ := idx_facts t
  funext a; apply Fin.ext
  match a with
  | ⟨0, _⟩ => show win0_1.index t (0 : Fin 2) * 512 + 1 * r.val = r.val; omega
  | ⟨1, _⟩ => show win0_1.index t (1 : Fin 2) * 512 + 1 * k.val = k.val; omega

theorem emb_out (t : Fin cfg0.N) (r : Fin 400) (k : Fin 512) (h : t.val * 400 + r.val < 10000) :
    ((cfg0.win 2).blk t).view.emb (ix2 r k) = (ix2 ⟨t.val * 400 + r.val, h⟩ k : (⟨2, ![10000, 512]⟩ : Shape).Idx) := by
  obtain ⟨e0, e1, e2, e3, e4, e5⟩ := idx_facts t
  funext a; apply Fin.ext
  match a with
  | ⟨0, _⟩ => show win0_2.index t (0 : Fin 2) * 400 + 1 * r.val = t.val * 400 + r.val; omega
  | ⟨1, _⟩ => show win0_2.index t (1 : Fin 2) * 512 + 1 * k.val = k.val; omega

/-- What point t writes back is block t of the whole product of the region's two entry arrays. -/
theorem flushed_eq (c : Dev nD) (t : Fin cfg0.N) :
    (dat0 (F := Ideal) V c).flushed 2 t = ((cfg0.win 2).blk t).view.read (Elt Ideal) (prod (φ₁ := .f32) (φ₂ := .bf16) (V c main_arg0) (V c main_call0_v0)) := by
  show (cfg0.win 2).cut (grid0.coords t) ((dat0 V c).after 2 t) = _
  rw [after0_2]
  unfold out0_2
  rw [View.canon_unit_zero hz]
  simp only [View.ld_unit_zero (S := S400x512) hz, View.ld_unit_zero (S := S512x512) hz]
  have key : ∀ j : (⟨2, ![400, 512]⟩ : Shape).Idx, k0_pay1 (iblk0 V c 0 t) (iblk0 V c 1 t) j
      = prod (φ₁ := .f32) (φ₂ := .bf16) (V c main_arg0) (V c main_call0_v0) (((cfg0.win 2).blk t).view.emb j) := by
    intro j
    obtain ⟨r, q, rfl⟩ : ∃ (r : Fin 400) (q : Fin 512), j = ix2 r q := ⟨j 0, j 1, eq_ix2 j⟩
    have ht : t.val < 25 := t.isLt
    have hr : t.val * 400 + r.val < 10000 := by have := r.isLt; omega
    rw [emb_out t r q hr]
    refine pay0_eq (V c main_arg0) (V c main_call0_v0) (iblk0 V c 0 t) (iblk0 V c 1 t) ⟨t.val * 400 + r.val, hr⟩ r q ?_ ?_
    · intro k
      show V c main_arg0 (((cfg0.win 0).blk t).view.emb (ix2 r k)) = _
      rw [emb_x t r k hr]
    · intro k
      show V c main_call0_v0 (((cfg0.win 1).blk t).view.emb (ix2 k q)) = _
      rw [emb_w t k q]
  funext j
  exact key j

/-- An index of the output array is in point t's block iff each coordinate is in the block's range on its axis. -/
theorem mem_blk (t : Fin cfg0.N) (i : S10000x512.Idx) :
    i ∈ ((cfg0.win 2).blk t).view.set ↔ ∀ a : Fin 2, win0_2.index t a * S400x512.size a ≤ (i a).val ∧ (i a).val < win0_2.index t a * S400x512.size a + S400x512.size a := by
  show i ∈ ((View.whole main_call0_v1).slice (win0_2.rect t)).set ↔ _
  rw [View.set_slice_whole, Rect.mem_set_unit]
  exact Iff.rfl

/-- Row p of the output array lies in the block of point p / 400, which is written back: the 25 blocks tile the array. -/
theorem cover (i : S10000x512.Idx) : ∃ t : Fin cfg0.N, (cfg0.win 2).flush t = true ∧ i ∈ ((cfg0.win 2).blk t).view.set := by
  have hi0 : (i 0).val < 10000 := (i 0).isLt
  have hi1 : (i 1).val < 512 := (i 1).isLt
  have hq : (i 0).val / 400 < 25 := by omega
  refine ⟨⟨(i 0).val / 400, hq⟩, flush0_2 _, ?_⟩
  rw [mem_blk]
  obtain ⟨e0, e1, e2, e3, e4, e5⟩ := idx_facts ⟨(i 0).val / 400, hq⟩
  intro a
  match a with
  | ⟨0, _⟩ =>
    show win0_2.index ⟨(i 0).val / 400, hq⟩ (0 : Fin 2) * 400 ≤ (i 0).val ∧ (i 0).val < win0_2.index ⟨(i 0).val / 400, hq⟩ (0 : Fin 2) * 400 + 400
    rw [e4]; show (i 0).val / 400 * 400 ≤ (i 0).val ∧ (i 0).val < (i 0).val / 400 * 400 + 400; omega
  | ⟨1, _⟩ =>
    show win0_2.index ⟨(i 0).val / 400, hq⟩ (1 : Fin 2) * 512 ≤ (i 1).val ∧ (i 1).val < win0_2.index ⟨(i 0).val / 400, hq⟩ (1 : Fin 2) * 512 + 512
    rw [e5]; omega

/-- The region's output array after its 25 write-backs: the whole product of its two entry arrays. -/
theorem final (c : Dev nD) :
    (dat0 (F := Ideal) V c).arrAt 2 cfg0.N = prod (φ₁ := .f32) (φ₂ := .bf16) (V c main_arg0) (V c main_call0_v0) :=
  (dat0 (F := Ideal) V c).arrAt_eq_of_cover 2 _ (fun t _ => flushed_eq V c t) cover

end Cert.KernelIdeal.Region0

end
-- ==== Proof.Region1.lean ====
/-
  The second region: HW = max(adj · S₁ + b₁, 0̂) · W₂, 400 rows of adj at a time.

  At grid point t the body reads rows 400t … 400t+399 of adj, the whole stored array S₁, the one-row bias and the second
  weight matrix; it forms (adj block) · S₁ plus the bias row, takes the entrywise maximum with zero and multiplies by W₂. A
  row of the result depends on that one row of adj only, so the block written back is rows 400t … of the whole-array
  expression, and the 25 blocks tile the output. Stated at any contents V of the buffers when the region is entered, for
  any vector b the one-row bias array spells out.
-/
import proofs.«145209_g29197187678275_cont_9to1_429_12_alg».proof.Proof.Gen.KernelIdeal.Frame
import proofs.«145209_g29197187678275_cont_9to1_429_12_alg».proof.Proof.Payloads
import Idealize.ShloMosaic.Lib.Pipeline.Value
import Idealize.ShloMosaic.Lib.ValueIdx

set_option maxRecDepth 16384

noncomputable section

namespace Cert.KernelIdeal.Region1

open Cert.KernelIdeal Cert.KernelIdeal.Gen Cert.KernelIdeal.Pay Cert.Layer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

variable (h1 : (⟨1, ![512]⟩ : Shape).BroadcastsInDim ⟨2, ![1, 512]⟩ ![1])
  (h2 : (⟨2, ![1, 512]⟩ : Shape).BroadcastsInDim ⟨2, ![10000, 512]⟩ ![0, 1])
variable (hS : (⟨0, ![]⟩ : Shape).BroadcastsInDim ⟨2, ![10000, 512]⟩ ![])

/-- The printed index maps, decided once over the grid of 25 points: a window of 400 rows sits at block row t, a whole-array
    window at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem emb_adj (t : Fin cfg1.N) (r : Fin 400) (k : Fin 10000) (h : t.val * 400 + r.val < 10000) :
    ((cfg1.win 0).blk t).view.emb (ix2 r k) = (ix2 ⟨t.val * 400 + r.val, h⟩ k : (⟨2, ![10000, 10000]⟩ : Shape).Idx) := by
  obtain ⟨e0, e1, e2, e3, e4, e5, e6, e7, e8, e9⟩ := idx_facts t
  funext a; apply Fin.ext
  match a with
  | ⟨0, _⟩ => show win1_0.index t (0 : Fin 2) * 400 + 1 * r.val = t.val * 400 + r.val; omega
  | ⟨1, _⟩ => show win1_0.index t (1 : Fin 2) * 10000 + 1 * k.val = k.val; omega

theorem emb_s (t : Fin cfg1.N) (r : Fin 10000) (k : Fin 512) :
    ((cfg1.win 1).blk t).view.emb (ix2 r k) = (ix2 r k : (⟨2, ![10000, 512]⟩ : Shape).Idx) := by
  obtain ⟨e0, e1, e2, e3, e4, e5, e6, e7, e8, e9⟩ := idx_facts t
  funext a; apply Fin.ext
  match a with
  | ⟨0, _⟩ => show win1_1.index t (0 : Fin 2) * 10000 + 1 * r.val = r.val; omega
  | ⟨1, _⟩ => show win1_1.index t (1 : Fin 2) * 512 + 1 * k.val = k.val; omega

theorem emb_w (t : Fin cfg1.N) (r : Fin 512) (k : Fin 512) :
    ((cfg1.win 2).blk t).view.emb (ix2 r k) = (ix2 r k : (⟨2, ![512, 512]⟩ : Shape).Idx) := by
  obtain ⟨e0, e1, e2, e3, e4, e5, e6, e7, e8, e9⟩ := idx_facts t
  funext a; apply Fin.ext
  match a with
  | ⟨0, _⟩ => show win1_2.index t (0 : Fin 2) * 512 + 1 * r.val = r.val; omega
  | ⟨1, _⟩ => show win1_2.index t (1 : Fin 2) * 512 + 1 * k.val = k.val; omega

theorem emb_b (t : Fin cfg1.N) (r : Fin 1) (k : Fin 512) :
    ((cfg1.win 3).blk t).view.emb (ix2 r k) = (ix2 r k : (⟨2, ![1, 512]⟩ : Shape).Idx) := by
  obtain ⟨e0, e1, e2, e3, e4, e5, e6, e7, e8, e9⟩ := idx_facts t
  funext a; apply Fin.ext
  match a with
  | ⟨0, _⟩ => show win1_3.index t (0 : Fin 2) * 1 + 1 * r.val = r.val; omega
  | ⟨1, _⟩ => show win1_3.index t (1 : Fin 2) * 512 + 1 * k.val = k.val; omega

theorem emb_out (t : Fin cfg1.N) (r : Fin 400) (k : Fin 512) (h : t.val * 400 + r.val < 10000) :
    ((cfg1.win 4).blk t).view.emb (ix2 r k) = (ix2 ⟨t.val * 400 + r.val, h⟩ k : (⟨2, ![10000, 512]⟩ : Shape).Idx) := by
  obtain ⟨e0, e1, e2, e3, e4, e5, e6, e7, e8, e9⟩ := idx_facts t
  funext a; apply Fin.ext
  match a with
  | ⟨0, _⟩ => show win1_4.index t (0 : Fin 2) * 400 + 1 * r.val = t.val * 400 + r.val; omega
  | ⟨1, _⟩ => show win1_4.index t (1 : Fin 2) * 512 + 1 * k.val = k.val; omega

/-- What point t writes back is block t of max(adj · S + b, 0̂) · W over the region's entry arrays. -/
theorem flushed_eq (c : Dev nD) (b : FVec Ideal ⟨1, ![512]⟩ .f32)
    (hb : ∀ k : Fin 512, V c main_call0_v3 (ix2 (0 : Fin 1) k) = b (ix1 k)) (t : Fin cfg1.N) :
    (dat1 (F := Ideal) V c).flushed 4 t = ((cfg1.win 4).blk t).view.read (Elt Ideal)
      (prod (φ₁ := .f32) (φ₂ := .bf16) (relu hS (conv (φ₂ := .bf16) h1 h2 (V c main_arg1) (V c main_call0_v1) b)) (V c main_call0_v2)) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x512) hz, View.ld_unit_zero (S := S1x512) hz,
    View.ld_unit_zero (S := S512x512) hz]
  have key : ∀ j : (⟨2, ![400, 512]⟩ : Shape).Idx, k1_pay1 (iblk1 V c 0 t) (iblk1 V c 1 t) (iblk1 V c 3 t) (iblk1 V c 2 t) j
      = prod (φ₁ := .f32) (φ₂ := .bf16) (relu hS (conv (φ₂ := .bf16) h1 h2 (V c main_arg1) (V c main_call0_v1) b)) (V c main_call0_v2)
          (((cfg1.win 4).blk t).view.emb j) := by
    intro j
    obtain ⟨r, q, rfl⟩ : ∃ (r : Fin 400) (q : Fin 512), j = ix2 r q := ⟨j 0, j 1, eq_ix2 j⟩
    have ht : t.val < 25 := t.isLt
    have hr : t.val * 400 + r.val < 10000 := by have := r.isLt; omega
    rw [emb_out t r q hr]
    refine pay1_eq h1 h2 hS (V c main_arg1) (V c main_call0_v1) b (V c main_call0_v2)
      (iblk1 V c 0 t) (iblk1 V c 1 t) (iblk1 V c 3 t) (iblk1 V c 2 t) ⟨t.val * 400 + r.val, hr⟩ r q ?_ ?_ ?_ ?_
    · intro j
      show V c main_arg1 (((cfg1.win 0).blk t).view.emb (ix2 r j)) = _
      rw [emb_adj t r j hr]
    · intro j k
      show V c main_call0_v1 (((cfg1.win 1).blk t).view.emb (ix2 j k)) = _
      rw [emb_s t j k]
    · intro k
      show V c main_call0_v3 (((cfg1.win 3).blk t).view.emb (ix2 (0 : Fin 1) k)) = _
      rw [emb_b t 0 k]
      exact hb k
    · intro k
      show V c main_call0_v2 (((cfg1.win 2).blk t).view.emb (ix2 k q)) = _
      rw [emb_w t k q]
  funext j
  exact key j

/-- An index of the output array is in point t's block iff each coordinate is in the block's range on its axis. -/
theorem mem_blk (t : Fin cfg1.N) (i : S10000x512.Idx) :
    i ∈ ((cfg1.win 4).blk t).view.set ↔ ∀ a : Fin 2, win1_4.index t a * S400x512.size a ≤ (i a).val ∧ (i a).val < win1_4.index t a * S400x512.size a + S400x512.size a := by
  show i ∈ ((View.whole main_call0_v4).slice (win1_4.rect t)).set ↔ _
  rw [View.set_slice_whole, Rect.mem_set_unit]
  exact Iff.rfl

/-- Row p of the output array lies in the block of point p / 400, which is written back: the 25 blocks tile the array. -/
theorem cover (i : S10000x512.Idx) : ∃ t : Fin cfg1.N, (cfg1.win 4).flush t = true ∧ i ∈ ((cfg1.win 4).blk t).view.set := by
  have hi0 : (i 0).val < 10000 := (i 0).isLt
  have hi1 : (i 1).val < 512 := (i 1).isLt
  have hq : (i 0).val / 400 < 25 := by omega
  refine ⟨⟨(i 0).val / 400, hq⟩, flush1_4 _, ?_⟩
  rw [mem_blk]
  obtain ⟨e0, e1, e2, e3, e4, e5, e6, e7, e8, e9⟩ := idx_facts ⟨(i 0).val / 400, hq⟩
  intro a
  match a with
  | ⟨0, _⟩ =>
    show win1_4.index ⟨(i 0).val / 400, hq⟩ (0 : Fin 2) * 400 ≤ (i 0).val ∧ (i 0).val < win1_4.index ⟨(i 0).val / 400, hq⟩ (0 : Fin 2) * 400 + 400
    rw [e8]; show (i 0).val / 400 * 400 ≤ (i 0).val ∧ (i 0).val < (i 0).val / 400 * 400 + 400; omega
  | ⟨1, _⟩ =>
    show win1_4.index ⟨(i 0).val / 400, hq⟩ (1 : Fin 2) * 512 ≤ (i 1).val ∧ (i 1).val < win1_4.index ⟨(i 0).val / 400, hq⟩ (1 : Fin 2) * 512 + 512
    rw [e9]; omega

/-- The region's output array after its 25 write-backs: max(adj · S + b, 0̂) · W over its entry arrays. -/
theorem final (c : Dev nD) (b : FVec Ideal ⟨1, ![512]⟩ .f32)
    (hb : ∀ k : Fin 512, V c main_call0_v3 (ix2 (0 : Fin 1) k) = b (ix1 k)) :
    (dat1 (F := Ideal) V c).arrAt 4 cfg1.N
      = prod (φ₁ := .f32) (φ₂ := .bf16) (relu hS (conv (φ₂ := .bf16) h1 h2 (V c main_arg1) (V c main_call0_v1) b)) (V c main_call0_v2) :=
  (dat1 (F := Ideal) V c).arrAt_eq_of_cover 4 _ (fun t _ => flushed_eq V h1 h2 hS c b hb t) cover

end Cert.KernelIdeal.Region1

end
-- ==== Proof.Region2.lean ====
/-
  The third region: out = adj · HW + b₂, 400 rows of adj at a time.

  At grid point t the body reads rows 400t … 400t+399 of adj, the whole stored array HW and the one-row bias, and stores
  (adj block) · HW with the bias row added to each row: rows 400t … of adj · HW + b₂. The 25 blocks tile the output. Stated
  at any contents V of the buffers when the region is entered, for any vector b the one-row bias array spells out.
-/
import proofs.«145209_g29197187678275_cont_9to1_429_12_alg».proof.Proof.Gen.KernelIdeal.Frame
import proofs.«145209_g29197187678275_cont_9to1_429_12_alg».proof.Proof.Payloads
import Idealize.ShloMosaic.Lib.Pipeline.Value
import Idealize.ShloMosaic.Lib.ValueIdx

set_option maxRecDepth 16384

noncomputable section

namespace Cert.KernelIdeal.Region2

open Cert.KernelIdeal Cert.KernelIdeal.Gen Cert.KernelIdeal.Pay Cert.Layer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

variable (h1 : (⟨1, ![512]⟩ : Shape).BroadcastsInDim ⟨2, ![1, 512]⟩ ![1])
  (h2 : (⟨2, ![1, 512]⟩ : Shape).BroadcastsInDim ⟨2, ![10000, 512]⟩ ![0, 1])

/-- The printed index maps, decided once over the grid of 25 points: a window of 400 rows sits at block row t, a whole-array
    window at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem emb_adj (t : Fin cfg2.N) (r : Fin 400) (k : Fin 10000) (h : t.val * 400 + r.val < 10000) :
    ((cfg2.win 0).blk t).view.emb (ix2 r k) = (ix2 ⟨t.val * 400 + r.val, h⟩ k : (⟨2, ![10000, 10000]⟩ : Shape).Idx) := by
  obtain ⟨e0, e1, e2, e3, e4, e5, e6, e7⟩ := idx_facts t
  funext a; apply Fin.ext
  match a with
  | ⟨0, _⟩ => show win2_0.index t (0 : Fin 2) * 400 + 1 * r.val = t.val * 400 + r.val; omega
  | ⟨1, _⟩ => show win2_0.index t (1 : Fin 2) * 10000 + 1 * k.val = k.val; omega

theorem emb_s (t : Fin cfg2.N) (r : Fin 10000) (k : Fin 512) :
    ((cfg2.win 1).blk t).view.emb (ix2 r k) = (ix2 r k : (⟨2, ![10000, 512]⟩ : Shape).Idx) := by
  obtain ⟨e0, e1, e2, e3, e4, e5, e6, e7⟩ := idx_facts t
  funext a; apply Fin.ext
  match a with
  | ⟨0, _⟩ => show win2_1.index t (0 : Fin 2) * 10000 + 1 * r.val = r.val; omega
  | ⟨1, _⟩ => show win2_1.index t (1 : Fin 2) * 512 + 1 * k.val = k.val; omega

theorem emb_b (t : Fin cfg2.N) (r : Fin 1) (k : Fin 512) :
    ((cfg2.win 2).blk t).view.emb (ix2 r k) = (ix2 r k : (⟨2, ![1, 512]⟩ : Shape).Idx) := by
  obtain ⟨e0, e1, e2, e3, e4, e5, e6, e7⟩ := idx_facts t
  funext a; apply Fin.ext
  match a with
  | ⟨0, _⟩ => show win2_2.index t (0 : Fin 2) * 1 + 1 * r.val = r.val; omega
  | ⟨1, _⟩ => show win2_2.index t (1 : Fin 2) * 512 + 1 * k.val = k.val; omega

theorem emb_out (t : Fin cfg2.N) (r : Fin 400) (k : Fin 512) (h : t.val * 400 + r.val < 10000) :
    ((cfg2.win 3).blk t).view.emb (ix2 r k) = (ix2 ⟨t.val * 400 + r.val, h⟩ k : (⟨2, ![10000, 512]⟩ : Shape).Idx) := by
  obtain ⟨e0, e1, e2, e3, e4, e5, e6, e7⟩ := idx_facts t
  funext a; apply Fin.ext
  match a with
  | ⟨0, _⟩ => show win2_3.index t (0 : Fin 2) * 400 + 1 * r.val = t.val * 400 + r.val; omega
  | ⟨1, _⟩ => show win2_3.index t (1 : Fin 2) * 512 + 1 * k.val = k.val; omega

/-- What point t writes back is block t of adj · HW + b over the region's entry arrays. -/
theorem flushed_eq (c : Dev nD) (b : FVec Ideal ⟨1, ![512]⟩ .f32)
    (hb : ∀ k : Fin 512, V c main_call0_v5 (ix2 (0 : Fin 1) k) = b (ix1 k)) (t : Fin cfg2.N) :
    (dat2 (F := Ideal) V c).flushed 3 t = ((cfg2.win 3).blk t).view.read (Elt Ideal)
      (conv (φ₂ := .bf16) h1 h2 (V c main_arg1) (V c main_call0_v4) b) := by
  show (cfg2.win 3).cut (grid2.coords t) ((dat2 V c).after 3 t) = _
  rw [after2_3]
  unfold out2_3
  rw [View.canon_unit_zero hz]
  simp only [View.ld_unit_zero (S := S400x10000) hz, View.ld_unit_zero (S := S10000x512) hz, View.ld_unit_zero (S := S1x512) hz]
  have key : ∀ j : (⟨2, ![400, 512]⟩ : Shape).Idx, k2_pay1 (iblk2 V c 0 t) (iblk2 V c 1 t) (iblk2 V c 2 t) j
      = conv (φ₂ := .bf16) h1 h2 (V c main_arg1) (V c main_call0_v4) b (((cfg2.win 3).blk t).view.emb j) := by
    intro j
    obtain ⟨r, q, rfl⟩ : ∃ (r : Fin 400) (q : Fin 512), j = ix2 r q := ⟨j 0, j 1, eq_ix2 j⟩
    have ht : t.val < 25 := t.isLt
    have hr : t.val * 400 + r.val < 10000 := by have := r.isLt; omega
    rw [emb_out t r q hr]
    refine pay2_eq h1 h2 (V c main_arg1) (V c main_call0_v4) b (iblk2 V c 0 t) (iblk2 V c 1 t) (iblk2 V c 2 t)
      ⟨t.val * 400 + r.val, hr⟩ r q ?_ ?_ ?_
    · intro j
      show V c main_arg1 (((cfg2.win 0).blk t).view.emb (ix2 r j)) = _
      rw [emb_adj t r j hr]
    · intro j
      show V c main_call0_v4 (((cfg2.win 1).blk t).view.emb (ix2 j q)) = _
      rw [emb_s t j q]
    · show V c main_call0_v5 (((cfg2.win 2).blk t).view.emb (ix2 (0 : Fin 1) q)) = _
      rw [emb_b t 0 q]
      exact hb q
  funext j
  exact key j

/-- An index of the output array is in point t's block iff each coordinate is in the block's range on its axis. -/
theorem mem_blk (t : Fin cfg2.N) (i : S10000x512.Idx) :
    i ∈ ((cfg2.win 3).blk t).view.set ↔ ∀ a : Fin 2, win2_3.index t a * S400x512.size a ≤ (i a).val ∧ (i a).val < win2_3.index t a * S400x512.size a + S400x512.size a := by
  show i ∈ ((View.whole main_v0).slice (win2_3.rect t)).set ↔ _
  rw [View.set_slice_whole, Rect.mem_set_unit]
  exact Iff.rfl

/-- Row p of the output array lies in the block of point p / 400, which is written back: the 25 blocks tile the array. -/
theorem cover (i : S10000x512.Idx) : ∃ t : Fin cfg2.N, (cfg2.win 3).flush t = true ∧ i ∈ ((cfg2.win 3).blk t).view.set := by
  have hi0 : (i 0).val < 10000 := (i 0).isLt
  have hi1 : (i 1).val < 512 := (i 1).isLt
  have hq : (i 0).val / 400 < 25 := by omega
  refine ⟨⟨(i 0).val / 400, hq⟩, flush2_3 _, ?_⟩
  rw [mem_blk]
  obtain ⟨e0, e1, e2, e3, e4, e5, e6, e7⟩ := idx_facts ⟨(i 0).val / 400, hq⟩
  intro a
  match a with
  | ⟨0, _⟩ =>
    show win2_3.index ⟨(i 0).val / 400, hq⟩ (0 : Fin 2) * 400 ≤ (i 0).val ∧ (i 0).val < win2_3.index ⟨(i 0).val / 400, hq⟩ (0 : Fin 2) * 400 + 400
    rw [e6]; show (i 0).val / 400 * 400 ≤ (i 0).val ∧ (i 0).val < (i 0).val / 400 * 400 + 400; omega
  | ⟨1, _⟩ =>
    show win2_3.index ⟨(i 0).val / 400, hq⟩ (1 : Fin 2) * 512 ≤ (i 1).val ∧ (i 1).val < win2_3.index ⟨(i 0).val / 400, hq⟩ (1 : Fin 2) * 512 + 512
    rw [e7]; omega

/-- The region's output array after its 25 write-backs: adj · HW + b over its entry arrays. -/
theorem final (c : Dev nD) (b : FVec Ideal ⟨1, ![512]⟩ .f32)
    (hb : ∀ k : Fin 512, V c main_call0_v5 (ix2 (0 : Fin 1) k) = b (ix1 k)) :
    (dat2 (F := Ideal) V c).arrAt 3 cfg2.N = conv (φ₂ := .bf16) h1 h2 (V c main_arg1) (V c main_call0_v4) b :=
  (dat2 (F := Ideal) V c).arrAt_eq_of_cover 3 _ (fun t _ => flushed_eq V h1 h2 c b hb t) cover

end Cert.KernelIdeal.Region2

end
-- ==== Proof.Chain.lean ====
/-
  The kernel's result array after the run, as one function of the six argument arrays.

  The run's buffer contents at each boundary are a fold from the launch memory. Walking the fold back from the result: the
  third region leaves adj · HW + b₂ of its entry arrays; of those, adj is as launched (no stretch and no region writes it),
  the bias row is b₂ reshaped to one row, and HW is what the second region left, max(adj · S₁ + b₁, 0̂) · W₂ of ITS entry
  arrays; there S₁ is what the first region left, x · W₁. The weight matrices reach the regions through a change of float
  format, which is the identity on the extended reals.
-/
import proofs.«145209_g29197187678275_cont_9to1_429_12_alg».proof.Proof.Gen.KernelIdeal.Frame
import proofs.«145209_g29197187678275_cont_9to1_429_12_alg».proof.Proof.Region0
import proofs.«145209_g29197187678275_cont_9to1_429_12_alg».proof.Proof.Region1
import proofs.«145209_g29197187678275_cont_9to1_429_12_alg».proof.Proof.Region2
import Idealize.ShloMosaic.Lib.StableHlo.Run

set_option maxRecDepth 16384

noncomputable section

namespace Cert.KernelIdeal.Chain

open Cert.KernelIdeal Cert.KernelIdeal.Gen Cert.Layer
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-- No operation of the named stretch writes the buffer in the goal: each operation's one written buffer is another one. -/
local macro "not_written " ops:ident : term => `(List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The first region's entry arrays -/

theorem V1_x (c : Dev nD) : V1 m ρ c main_arg0 = m ((c : Thread nD τ).loc main_arg0) :=
  StableHlo.after_of_forall_not_mem (b := Proc.devRef .tc main_arg0) _ _ (not_written hostOps0)

theorem V1_w (c : Dev nD) : V1 m ρ c main_call0_v0 = m ((c : Thread nD τ).loc main_arg2) := by
  show StableHlo.after hostOps0 (W0 m ρ c) (Proc.devRef .tc main_call0_v0) = _
  after_results <;> rfl

/-! ## The second region's entry arrays -/

theorem W2_arg (c : Dev nD) (b : Ref sig .tc) (hb : ∀ w, Pipeline.arrRef spec0 w ≠ b)
    (h0 : StableHlo.after hostOps0 (W0 m ρ c) (Proc.devRef .tc b) = W0 m ρ c (Proc.devRef .tc b)) :
    W2 m ρ c (Proc.devRef .tc b) = m ((c : Thread nD τ).loc b) :=
  (W2_of_ne m ρ c b hb).trans h0

theorem W2_adj (c : Dev nD) : W2 m ρ c (Proc.devRef .tc main_arg1) = m ((c : Thread nD τ).loc main_arg1) :=
  W2_arg m ρ c main_arg1 (by decide) (StableHlo.after_of_forall_not_mem (b := Proc.devRef .tc main_arg1) _ _ (not_written hostOps0))
theorem W2_b1 (c : Dev nD) : W2 m ρ c (Proc.devRef .tc main_arg3) = m ((c : Thread nD τ).loc main_arg3) :=
  W2_arg m ρ c main_arg3 (by decide) (StableHlo.after_of_forall_not_mem (b := Proc.devRef .tc main_arg3) _ _ (not_written hostOps0))
theorem W2_w2 (c : Dev nD) : W2 m ρ c (Proc.devRef .tc main_arg4) = m ((c : Thread nD τ).loc main_arg4) :=
  W2_arg m ρ c main_arg4 (by decide) (StableHlo.after_of_forall_not_mem (b := Proc.devRef .tc main_arg4) _ _ (not_written hostOps0))
theorem W2_b2 (c : Dev nD) : W2 m ρ c (Proc.devRef .tc main_arg5) = m ((c : Thread nD τ).loc main_arg5) :=
  W2_arg m ρ c main_arg5 (by decide) (StableHlo.after_of_forall_not_mem (b := Proc.devRef .tc main_arg5) _ _ (not_written hostOps0))

theorem V3_adj (c : Dev nD) : V3 m ρ c main_arg1 = m ((c : Thread nD τ).loc main_arg1) :=
  (StableHlo.after_of_forall_not_mem (b := Proc.devRef .tc main_arg1) _ _ (not_written hostOps1)).trans (W2_adj m ρ c)

theorem V3_s (c : Dev nD) : V3 m ρ c main_call0_v1 = (dat0 (V1 m ρ) c).arrAt 2 cfg0.N :=
  (StableHlo.after_of_forall_not_mem (b := Proc.devRef .tc main_call0_v1) _ _ (not_written hostOps1)).trans (W2_arr m ρ c 2)

theorem V3_w (c : Dev nD) : V3 m ρ c main_call0_v2 = m ((c : Thread nD τ).loc main_arg4) := by
  show StableHlo.after hostOps1 (W2 m ρ c) (Proc.devRef .tc main_call0_v2) = _
  refine Eq.trans ?_ (W2_w2 m ρ c)
  after_results <;> rfl

theorem V3_b (c : Dev nD) : V3 m ρ c main_call0_v3 = shapeCast S1x512 (m ((c : Thread nD τ).loc main_arg3)) shapeCasts_S512_S1x512 := by
  show StableHlo.after hostOps1 (W2 m ρ c) (Proc.devRef .tc main_call0_v3) = _
  rw [← W2_b1 m ρ c]
  after_results <;> rfl

/-! ## The third region's entry arrays -/

theorem W4_b2 (c : Dev nD) : W4 m ρ c (Proc.devRef .tc main_arg5) = m ((c : Thread nD τ).loc main_arg5) :=
  (W4_of_ne m ρ c main_arg5 (by decide)).trans
    ((StableHlo.after_of_forall_not_mem (b := Proc.devRef .tc main_arg5) _ _ (not_written hostOps1)).trans (W2_b2 m ρ c))

theorem W4_adj (c : Dev nD) : W4 m ρ c (Proc.devRef .tc main_arg1) = m ((c : Thread nD τ).loc main_arg1) :=
  (W4_arr m ρ c 0).trans ((((dat1 (V3 m ρ) c).arrAt_in 0 rfl _).trans (A_eq1 (V3 m ρ) c 0)).trans (V3_adj m ρ c))

theorem V5_adj (c : Dev nD) : V5 m ρ c main_arg1 = m ((c : Thread nD τ).loc main_arg1) :=
  (StableHlo.after_of_forall_not_mem (b := Proc.devRef .tc main_arg1) _ _ (not_written hostOps2)).trans (W4_adj m ρ c)

theorem V5_hw (c : Dev nD) : V5 m ρ c main_call0_v4 = (dat1 (V3 m ρ) c).arrAt 4 cfg1.N :=
  (StableHlo.after_of_forall_not_mem (b := Proc.devRef .tc main_call0_v4) _ _ (not_written hostOps2)).trans (W4_arr m ρ c 4)

theorem V5_b (c : Dev nD) : V5 m ρ c main_call0_v5 = shapeCast S1x512 (m ((c : Thread nD τ).loc main_arg5)) shapeCasts_S512_S1x512 := by
  show StableHlo.after hostOps2 (W4 m ρ c) (Proc.devRef .tc main_call0_v5) = _
  rw [← W4_b2 m ρ c]
  after_results <;> rfl

/-! ## The result -/

variable (h1 : (⟨1, ![512]⟩ : Shape).BroadcastsInDim ⟨2, ![1, 512]⟩ ![1])
  (h2 : (⟨2, ![1, 512]⟩ : Shape).BroadcastsInDim ⟨2, ![10000, 512]⟩ ![0, 1])
  (hS : (⟨0, ![]⟩ : Shape).BroadcastsInDim ⟨2, ![10000, 512]⟩ ![])

/-- The result buffer at the last boundary is the two-layer convolution of the launch contents of the six arguments. -/
theorem result (c : Dev nD) :
    W6 m ρ c (Proc.devRef .tc main_v0)
      = twoLayer h1 h2 hS (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have hb1 : ∀ k : Fin 512, V3 m ρ c main_call0_v3 (ix2 (0 : Fin 1) k) = (m ((c : Thread nD τ).loc main_arg3) : FVec Ideal ⟨1, ![512]⟩ .f32) (ix1 k) := by
    intro k; rw [V3_b]; exact Cert.RowBias.ofVec_apply _ _ k
  have hb2 : ∀ k : Fin 512, V5 m ρ c main_call0_v5 (ix2 (0 : Fin 1) k) = (m ((c : Thread nD τ).loc main_arg5) : FVec Ideal ⟨1, ![512]⟩ .f32) (ix1 k) := by
    intro k; rw [V5_b]; exact Cert.RowBias.ofVec_apply _ _ k
  refine (W6_arr m ρ c 3).trans ?_
  rw [Cert.KernelIdeal.Region2.final (V5 m ρ) h1 h2 c _ hb2, V5_adj, V5_hw,
    Cert.KernelIdeal.Region1.final (V3 m ρ) h1 h2 hS c _ hb1, V3_adj, V3_s, V3_w,
    Cert.KernelIdeal.Region0.final (V1 m ρ) c, V1_x, V1_w]
  rfl

end Cert.KernelIdeal.Chain

end
-- ==== Proof.lean ====
/-
  A two-layer graph convolution, out = adj · (max(adj · (x · W₁) + b₁, 0) · W₂) + b₂, computed by three tiled kernels against
  the same expression written with whole-array operations.

  On the extended reals a change of float format is the identity, the matrix unit's product into a zero accumulator and the
  host's dot_general are the same sum over the contracted index, and a one-row bias broadcast down the rows is the vector
  read at the column. So each kernel region, which handles 400 rows of its left operand per grid point, leaves in its output
  array exactly the whole-array stage of its entry arrays (a row of a product depends on that row of the left operand only,
  and the 25 row blocks tile the 10000 rows); chaining the three regions through the host operations between them gives the
  kernel's result as the reference's own nested expression of the six arguments. No algebraic law is needed between the two
  sides — they are the same sums in the same grouping — so the finiteness of the inputs is never used.

  The three frames: the two kernel programs' are the generated frame certificates; the reference's is its generated run with the
  result dropped. The ideal pass rewrote nothing, so the idealization conjunct is trivial.
-/
import proofs.«145209_g29197187678275_cont_9to1_429_12_alg».proof.Defs
import proofs.«145209_g29197187678275_cont_9to1_429_12_alg».proof.Proof.Gen.Kernel
import proofs.«145209_g29197187678275_cont_9to1_429_12_alg».proof.Proof.Gen.Kernel.Skeleton
import proofs.«145209_g29197187678275_cont_9to1_429_12_alg».proof.Proof.Gen.Kernel.Launch
import proofs.«145209_g29197187678275_cont_9to1_429_12_alg».proof.Proof.Gen.Kernel.Points
import proofs.«145209_g29197187678275_cont_9to1_429_12_alg».proof.Proof.Gen.Kernel.Frame
import proofs.«145209_g29197187678275_cont_9to1_429_12_alg».proof.Proof.Gen.KernelIdeal
import proofs.«145209_g29197187678275_cont_9to1_429_12_alg».proof.Proof.Gen.KernelIdeal.Skeleton
import proofs.«145209_g29197187678275_cont_9to1_429_12_alg».proof.Proof.Gen.KernelIdeal.Launch
import proofs.«145209_g29197187678275_cont_9to1_429_12_alg».proof.Proof.Gen.KernelIdeal.Points
import proofs.«145209_g29197187678275_cont_9to1_429_12_alg».proof.Proof.Gen.KernelIdeal.Frame
import proofs.«145209_g29197187678275_cont_9to1_429_12_alg».proof.Proof.Gen.ReferenceIdeal
import proofs.«145209_g29197187678275_cont_9to1_429_12_alg».proof.Proof.Gen.ReferenceIdeal.Run
import proofs.«145209_g29197187678275_cont_9to1_429_12_alg».proof.Proof.Gen.Pre_finite_inputs
import proofs.«145209_g29197187678275_cont_9to1_429_12_alg».proof.Proof.RunNamed
import proofs.«145209_g29197187678275_cont_9to1_429_12_alg».proof.Proof.Chain
import Idealize.ShloMosaic.Adequacy
import Idealize.ShloMosaic.Init

noncomputable section

namespace Cert.Proof

open Idealize.ShloMosaic Idealize.SL.Sem Cert.Layer

theorem frame_kernel : Cert.frame_Kernel := fun m ρ _ => Cert.Kernel.Gen.frame m ρ

theorem frame_kernelIdeal : Cert.frame_KernelIdeal := fun m ρ _ => Cert.KernelIdeal.Gen.frame m ρ

/-- The reference terminates with its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the two-layer convolution of the (agreeing) arguments in their result buffers: the kernel's by the
    chain through its three regions, the reference's because its run's term is that expression, operation for operation. -/
theorem algebraic : Cert.algebraic_KernelIdeal_ReferenceIdeal := by
  intro m ρ m' ρ' _ hagree
  refine ⟨fun c => twoLayer Cert.ReferenceIdeal.Gen.bcast_S512_S1x512_1 Cert.ReferenceIdeal.Gen.bcast_S1x512_S10000x512_0_1
      Cert.ReferenceIdeal.Gen.bcast_S_S10000x512
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.result m ρ _ _ _ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
